-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S32x32x8x4 : Shape := ⟨4, ![32, 32, 8, 4]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S32x32x8x4 : S_.BroadcastsInDim S32x32x8x4 (![] : Fin 0 → Fin S32x32x8x4.rank)
  reducesTo_S32x32x8x4_S_d0_1_2_3 : S32x32x8x4.ReducesTo [0, 1, 2, 3] S_

variable [Facts]

def fn {F : FTy → Type} [FloatOps F] (main_arg0 : FVec F S32x512x768 .f32) (main_arg1 : IVec S32x32x8x4 32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_c_0 : IVec S_ 32 := constantI S_ 32 0#32
  let main_v4 : IVec S32x32x8x4 32 := broadcastInDim S32x32x8x4 ![] bcast_S_S32x32x8x4 main_c_0
  let main_v5 : IVec S32x32x8x4 1 := cmpi .sge main_arg1 main_v4
  let main_c_1 : IVec S_ 32 := constantI S_ 32 512#32
  let main_v6 : IVec S32x32x8x4 32 := broadcastInDim S32x32x8x4 ![] bcast_S_S32x32x8x4 main_c_1
  let main_v7 : IVec S32x32x8x4 1 := cmpi .slt main_arg1 main_v6
  let main_v8 : IVec S32x32x8x4 1 := andi main_v5 main_v7
  let main_c_2 : IVec S_ 1 := constantI S_ 1 1#1
  let main_v9 : IVec S_ 1 := (fun x v => Host.reduce IntOp.andi x v reducesTo_S32x32x8x4_S_d0_1_2_3 h_S_) main_v8 main_c_2
  let main_v10 : IVec S_ 1 := andi main_v3 main_v9
  main_v10
-- ==== Kernel.lean ====
abbrev S32x512x768 : Shape := ⟨3, ![32, 512, 768]⟩
abbrev S32x32x8x4 : Shape := ⟨4, ![32, 32, 8, 4]⟩
abbrev S32x256x4 : Shape := ⟨3, ![32, 256, 4]⟩
abbrev S32x256x768 : Shape := ⟨3, ![32, 256, 768]⟩
abbrev S32x32x768 : Shape := ⟨3, ![32, 32, 768]⟩
abbrev S8x256x4 : Shape := ⟨3, ![8, 256, 4]⟩
abbrev S8x512x768 : Shape := ⟨3, ![8, 512, 768]⟩
abbrev S8x256x768 : Shape := ⟨3, ![8, 256, 768]⟩
abbrev S8x32x768 : Shape := ⟨3, ![8, 32, 768]⟩
abbrev S1x1x512 : Shape := ⟨3, ![1, 1, 512]⟩
abbrev S8x256x512 : Shape := ⟨3, ![8, 256, 512]⟩
abbrev S8x256x1 : Shape := ⟨3, ![8, 256, 1]⟩
abbrev S8x32x8x768 : Shape := ⟨4, ![8, 32, 8, 768]⟩
abbrev S32x32x8x768 : Shape := ⟨4, ![32, 32, 8, 768]⟩
abbrev S_ : Shape := ⟨0, ![]⟩
abbrev S32x32x8 : Shape := ⟨3, ![32, 32, 8]⟩

abbrev nBuf : Space → Nat
  | .hbm => 8
  | .vmem => 8
  | .smem => 0
  | _ => 0

abbrev bufTy : (tb : Table) → Fin (tcTables nBuf tb) → BufTy
  | .hbm, ⟨0, _⟩ => ⟨S32x512x768, .f32⟩
  | .hbm, ⟨1, _⟩ => ⟨S32x32x8x4, .i32⟩
  | .hbm, ⟨2, _⟩ => ⟨S32x256x4, .i32⟩
  | .hbm, ⟨3, _⟩ => ⟨S32x256x768, .f32⟩
  | .hbm, ⟨4, _⟩ => ⟨S32x32x768, .f32⟩
  | .hbm, ⟨5, _⟩ => ⟨S32x32x8x768, .f32⟩
  | .hbm, ⟨6, _⟩ => ⟨S_, .f32⟩
  | .hbm, ⟨7, _⟩ => ⟨S32x32x8, .f32⟩
  | .local _ .vmem, ⟨0, _⟩ => ⟨S8x256x4, .i32⟩
  | .local _ .vmem, ⟨1, _⟩ => ⟨S8x256x4, .i32⟩
  | .local _ .vmem, ⟨2, _⟩ => ⟨S8x512x768, .f32⟩
  | .local _ .vmem, ⟨3, _⟩ => ⟨S8x512x768, .f32⟩
  | .local _ .vmem, ⟨4, _⟩ => ⟨S8x256x768, .f32⟩
  | .local _ .vmem, ⟨5, _⟩ => ⟨S8x256x768, .f32⟩
  | .local _ .vmem, ⟨6, _⟩ => ⟨S8x32x768, .f32⟩
  | .local _ .vmem, ⟨7, _⟩ => ⟨S8x32x768, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x32x8x4_S32x256x4 : S32x32x8x4.ShapeCasts S32x256x4
  inb_S8x256x4_S8x256x4_0_0_0 : ∀ a, (![0, 0, 0] : Fin 3 → Nat) a + S8x256x4.size a ≤ S8x256x4.size a
  h_S8x256x4 : 0 < S8x256x4.numel
  shapeCasts_S8x256x4_S8x256x4 : S8x256x4.ShapeCasts S8x256x4
  iota_S1x1x512_d2_w32 : S1x1x512.Iotas .tc 32 [2]
  slices_S8x256x4_o0_0_0_S8x256x1 : S8x256x4.Slices ![0, 0, 0] S8x256x1
  broadcasts_S8x256x1_S8x256x512 : S8x256x1.Broadcasts S8x256x512
  broadcasts_S1x1x512_S8x256x512 : S1x1x512.Broadcasts S8x256x512
  slices_S8x256x4_o0_0_1_S8x256x1 : S8x256x4.Slices ![0, 0, 1] S8x256x1
  slices_S8x256x4_o0_0_2_S8x256x1 : S8x256x4.Slices ![0, 0, 2] S8x256x1
  slices_S8x256x4_o0_0_3_S8x256x1 : S8x256x4.Slices ![0, 0, 3] S8x256x1
  inb_S8x512x768_S8x512x768_0_0_0 : ∀ a, (![0, 0, 0] : Fin 3 → Nat) a + S8x512x768.size a ≤ S8x512x768.size a
  h_S8x512x768 : 0 < S8x512x768.numel
  inb_S8x256x768_S8x256x768_0_0_0 : ∀ a, (![0, 0, 0] : Fin 3 → Nat) a + S8x256x768.size a ≤ S8x256x768.size a
  h_S8x256x768 : 0 < S8x256x768.numel
  shapeCasts_S8x256x768_S8x32x8x768 : S8x256x768.ShapeCasts S8x32x8x768
  reduces_S8x32x8x768_S8x32x768 : S8x32x8x768.Reduces [2] S8x32x768
  inb_S8x32x768_S8x32x768_0_0_0 : ∀ a, (![0, 0, 0] : Fin 3 → Nat) a + S8x32x768.size a ≤ S8x32x768.size a
  h_S8x32x768 : 0 < S8x32x768.numel
  shapeCasts_S32x256x768_S32x32x8x768 : S32x256x768.ShapeCasts S32x32x8x768
  bcast_S_S32x32x8 : S_.BroadcastsInDim S32x32x8 (![] : Fin 0 → Fin S32x32x8.rank)
  dot_S8x256x512_S8x512x768_S8x256x768_2_1_1_2_0_0_wf : DotDims.WF S8x256x512 S8x512x768 S8x256x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x4.size a ≤ S32x256x4.size a
  hwx0_0 : ∀ i : grid0.Coords, EltTy.bits .i32 = 32 ∨ (Rect.block (s := S32x256x4) S8x256x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x768.size a ≤ S32x512x768.size a
  hwx0_1 : ∀ i : grid0.Coords, EltTy.bits .f32 = 32 ∨ (Rect.block (s := S32x512x768) S8x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x768.size a ≤ S32x256x768.size a
  hwx0_2 : ∀ i : grid0.Coords, EltTy.bits .f32 = 32 ∨ (Rect.block (s := S32x256x768) S8x256x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32x768.size a ≤ S32x32x768.size a
  hwx0_3 : ∀ i : grid0.Coords, EltTy.bits .f32 = 32 ∨ (Rect.block (s := S32x32x768) S8x32x768.size (cc0_transform_3 i) (hinb0_3 i)).WholeWords (EltTy.packing .f32)

variable [Facts₀]

def dot_S8x256x512_S8x512x768_S8x256x768_2_1_1_2_0_0 : DotDims S8x256x512 S8x512x768 S8x256x768 where
  lhsContracting := [2]
  rhsContracting := [1]
  lhsNonContracting := [1]
  rhsNonContracting := [2]
  lhsBatch := [0]
  rhsBatch := [0]
  wf := dot_S8x256x512_S8x512x768_S8x256x768_2_1_1_2_0_0_wf

abbrev win0_0 : Pipeline.Window sig grid0 :=
  Pipeline.Window.ofSpec (Memref.whole main_v0) S8x256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x256x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x32x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S32x32x8x4 : Shape := ⟨4, ![32, 32, 8, 4]⟩
abbrev S_ : Shape := ⟨0, ![]⟩
abbrev S32x32x8x4x1 : Shape := ⟨5, ![32, 32, 8, 4, 1]⟩
abbrev S32x32x8x4x768 : Shape := ⟨5, ![32, 32, 8, 4, 768]⟩
abbrev S32x32x8x768 : Shape := ⟨4, ![32, 32, 8, 768]⟩
abbrev S32x32x768 : Shape := ⟨3, ![32, 32, 768]⟩
abbrev S32x32x8 : Shape := ⟨3, ![32, 32, 8]⟩

abbrev nBuf : Space → Nat
  | .hbm => 23
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x32x8x4, .i32⟩
  | .hbm, ⟨2, _⟩ => ⟨S_, .i32⟩
  | .hbm, ⟨3, _⟩ => ⟨S32x32x8x4, .i32⟩
  | .hbm, ⟨4, _⟩ => ⟨S32x32x8x4, .i1⟩
  | .hbm, ⟨5, _⟩ => ⟨S_, .i32⟩
  | .hbm, ⟨6, _⟩ => ⟨S32x32x8x4, .i32⟩
  | .hbm, ⟨7, _⟩ => ⟨S32x32x8x4, .i32⟩
  | .hbm, ⟨8, _⟩ => ⟨S32x32x8x4, .i32⟩
  | .hbm, ⟨9, _⟩ => ⟨S32x32x8x4x1, .i32⟩
  | .hbm, ⟨10, _⟩ => ⟨S32x32x8x4x768, .f32⟩
  | .hbm, ⟨11, _⟩ => ⟨S_, .f32⟩
  | .hbm, ⟨12, _⟩ => ⟨S32x32x8x768, .f32⟩
  | .hbm, ⟨13, _⟩ => ⟨S_, .f32⟩
  | .hbm, ⟨14, _⟩ => ⟨S32x32x8x768, .f32⟩
  | .hbm, ⟨15, _⟩ => ⟨S32x32x8x768, .f32⟩
  | .hbm, ⟨16, _⟩ => ⟨S_, .f32⟩
  | .hbm, ⟨17, _⟩ => ⟨S32x32x768, .f32⟩
  | .hbm, ⟨18, _⟩ => ⟨S_, .f32⟩
  | .hbm, ⟨19, _⟩ => ⟨S32x32x768, .f32⟩
  | .hbm, ⟨20, _⟩ => ⟨S32x32x768, .f32⟩
  | .hbm, ⟨21, _⟩ => ⟨S_, .f32⟩
  | .hbm, ⟨22, _⟩ => ⟨S32x32x8, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S32x32x8x4 : S_.BroadcastsInDim S32x32x8x4 (![] : Fin 0 → Fin S32x32x8x4.rank)
  bcast_S32x32x8x4_S32x32x8x4x1_0_1_2_3 : S32x32x8x4.BroadcastsInDim S32x32x8x4x1 (![0, 1, 2, 3] : Fin 4 → Fin S32x32x8x4x1.rank)
  reducesTo_S32x32x8x4x768_S32x32x8x768_d3 : S32x32x8x4x768.ReducesTo [3] S32x32x8x768
  h_S_ : 0 < S_.numel
  bcast_S_S32x32x8x768 : S_.BroadcastsInDim S32x32x8x768 (![] : Fin 0 → Fin S32x32x8x768.rank)
  reducesTo_S32x32x8x768_S32x32x768_d2 : S32x32x8x768.ReducesTo [2] S32x32x768
  bcast_S_S32x32x768 : S_.BroadcastsInDim S32x32x768 (![] : Fin 0 → Fin S32x32x768.rank)
  bcast_S_S32x32x8 : S_.BroadcastsInDim S32x32x8 (![] : Fin 0 → Fin S32x32x8.rank)
  gather_S32x512x768_S32x32x8x4x1_S32x32x8x4x768_4_1_0_0_1_4_11768_wf : GatherDims.WF S32x512x768 S32x32x8x4x1 S32x32x8x4x768 [4] [1] [0] [1] [0] 4 ![1, 1, 768]

variable [Facts₀]

def gather_S32x512x768_S32x32x8x4x1_S32x32x8x4x768_4_1_0_0_1_4_11768 : GatherDims S32x512x768 S32x32x8x4x1 S32x32x8x4x768 where
  offsetDims := [4]
  collapsedSliceDims := [1]
  operandBatchingDims := [0]
  startIndicesBatchingDims := [0]
  startIndexMap := [1]
  indexVectorDim := 4
  sliceSizes := ![1, 1, 768]
  wf := gather_S32x512x768_S32x32x8x4x1_S32x32x8x4x768_4_1_0_0_1_4_11768_wf

class Facts : Prop extends Facts₀ where

variable [Facts]
-- ==== Proof.Spec.lean ====
/-
  The mathematics of the span-mean kernel, with no program in sight.

  Tokens are an array `x : [32, 512, 768]` of extended reals and positions an array `p : [32, 32, 8, 4]` of 32-bit
  words. A MENTION's representation is the mean of the four token rows its positions name,
      mention x p (b, e, m, h) = (∑ s < 4, x (b, row (p (b, e, m, s)), h)) / 4,
  and an ENTITY's the mean of its eight mentions,
      entity x p (b, e, h) = (∑ m < 8, mention x p (b, e, m, h)) / 8.
  `row w` reads the word as a signed integer and clamps it into `[0, 511]`; on a word whose value is below 512 it is the
  value itself, and that is the only case the certificate uses.

  The kernel does not gather rows: it builds, for each mention, the weight vector
      weight p₀ p₁ p₂ p₃ l = (((0 + [p₀ = l]/4) + [p₁ = l]/4) + [p₂ = l]/4) + [p₃ = l]/4        (l < 512)
  and contracts it with the token rows. `weighted_sum_eq` is the law that joins the two: for FINITE token values and
  words below 512,  ∑ l, weight p l * x l = (∑ s, x (row (p s))) / 4.  It is proved over the reals (each `[pₛ = l]/4 * x l`
  summed over `l` picks out `x (pₛ) / 4`) and carried to the extended reals by pushing the coercion out of sums and
  products; finiteness is what lets the products distribute.
-/
import Idealize.ShloMosaic.Lib.ValueIdx
import Idealize.ShloMosaic.Lib.StableHlo.Predicate
import Idealize.ShloMosaic.PureOps.Ideal.Laws

noncomputable section

open scoped BigOperators

namespace Cert.SpanMean

open Idealize.ShloMosaic Idealize.ShloMosaic.ValueIdx

/-! ## The three float constants, as the reals their words denote -/

/-- `0.25` denotes the real `1/4`. -/
theorem ofBits_quarter : Ideal.ofBits .f32 0x3E800000#32 = ((1 / 4 : ℝ) : EReal) := by
  simp [Ideal.ofBits, Ideal.ieee, -EReal.coe_mul]; norm_num

/-- `4.0` denotes the real `4`. -/
theorem ofBits_four : Ideal.ofBits .f32 0x40800000#32 = ((4 : ℝ) : EReal) := by
  simp [Ideal.ofBits, Ideal.ieee, -EReal.coe_mul]; norm_num

/-! ## The specification -/

/-- The token row a position word names: its signed value clamped into `[0, 511]`. -/
def row (w : BitVec 32) : Fin 512 := ⟨min w.toInt.toNat 511, by omega⟩

/-- A word whose value is below 512 names the row of that value. -/
theorem row_val_of_lt {w : BitVec 32} (hw : w.toNat < 512) : (row w).val = w.toNat := by
  have h : w.toInt = w.toNat := StableHlo.Predicate.toInt_eq_toNat_of_lt (by omega)
  show min w.toInt.toNat 511 = w.toNat
  rw [h, Int.toNat_natCast]; omega

/-- A word below 512 is the word of the row it names. -/
theorem ofNat_row_of_lt {w : BitVec 32} (hw : w.toNat < 512) : BitVec.ofNat 32 (row w).val = w := by
  rw [row_val_of_lt hw]
  apply BitVec.eq_of_toNat_eq
  rw [BitVec.toNat_ofNat]
  exact Nat.mod_eq_of_lt w.isLt

/-- For a word below 512, "the word equals the word of `l`" is "the row it names is `l`". -/
theorem eq_ofNat_iff_row {w : BitVec 32} (hw : w.toNat < 512) (l : Fin 512) : w = BitVec.ofNat 32 l.val ↔ row w = l := by
  constructor
  · intro h
    apply Fin.ext
    rw [row_val_of_lt hw, h, BitVec.toNat_ofNat]
    have := l.isLt
    omega
  · intro h
    rw [← h, ofNat_row_of_lt hw]

/-- A mention's representation: the mean of the four token rows its positions name. -/
def mention (x : (⟨3, ![32, 512, 768]⟩ : Shape).Idx → EReal) (p : (⟨4, ![32, 32, 8, 4]⟩ : Shape).Idx → BitVec 32) :
    (⟨4, ![32, 32, 8, 768]⟩ : Shape).Idx → EReal := fun i =>
  Ideal.div (∑ s : Fin 4, x (ix3 (i 0) (row (p (ix4 (i 0) (i 1) (i 2) s))) (i 3))) (Ideal.ofBits .f32 0x40800000#32)

/-- An entity's representation: the mean of its eight mentions. -/
def entity (x : (⟨3, ![32, 512, 768]⟩ : Shape).Idx → EReal) (p : (⟨4, ![32, 32, 8, 4]⟩ : Shape).Idx → BitVec 32) :
    (⟨3, ![32, 32, 768]⟩ : Shape).Idx → EReal := fun i =>
  Ideal.div (∑ m : Fin 8, mention x p (ix4 (i 0) (i 1) m (i 2))) (Ideal.ofBits .f32 0x41000000#32)

/-! ## The kernel's weights -/

/-- One position's share of the weight at row `l`: a quarter where the word is `l`'s, zero elsewhere — as the kernel
    spells it, a select on a word comparison between the two float constants. -/
def share (w : BitVec 32) (l : Fin 512) : EReal :=
  Scalar.select (IntOp.cmpi .eq w (BitVec.ofNat 32 l.val)) (Ideal.ofBits .f32 0x3E800000#32) (Ideal.ofBits .f32 0x00000000#32)

/-- For a word below 512 the share is the real `1/4` at the row the word names and `0` elsewhere. -/
theorem share_eq {w : BitVec 32} (hw : w.toNat < 512) (l : Fin 512) :
    share w l = (((if row w = l then (1 / 4 : ℝ) else 0) : ℝ) : EReal) := by
  unfold share
  by_cases h : row w = l
  · have hc : IntOp.cmpi .eq w (BitVec.ofNat 32 l.val) = 1#1 :=
      StableHlo.Predicate.cmpi_eq_iff.mpr ((eq_ofNat_iff_row hw l).mpr h)
    rw [hc, select_one, if_pos h, ofBits_quarter]
  · have hc : IntOp.cmpi .eq w (BitVec.ofNat 32 l.val) = 0#1 :=
      eq_zero_of_ne_one fun h1 => h ((eq_ofNat_iff_row hw l).mp (StableHlo.Predicate.cmpi_eq_iff.mp h1))
    rw [hc, select_zero, if_neg h, Ideal.ofBits_zero_f32, EReal.coe_zero]

/-- A mention's weight at row `l`: the four shares accumulated from zero, in the kernel's order. -/
def weight (p : Fin 4 → BitVec 32) (l : Fin 512) : EReal :=
  (((Ideal.ofBits .f32 0x00000000#32 + share (p 0) l) + share (p 1) l) + share (p 2) l) + share (p 3) l

/-! ## The law: a weighted sum over all rows is the mean of the four named rows -/

/-- The coercion of reals into extended reals commutes with finite sums. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Over the reals: the indicator of one row, summed against all rows, picks that row out. -/
theorem sum_indicator_mul (r : Fin 512 → ℝ) (q : Fin 512) :
    ∑ l : Fin 512, (if q = l then (1 / 4 : ℝ) else 0) * r l = 1 / 4 * r q := by
  simp only [ite_mul, zero_mul]
  rw [Finset.sum_ite_eq Finset.univ q (fun l => 1 / 4 * r l), if_pos (Finset.mem_univ q)]

/-- Over the reals: the four accumulated indicators against all rows give a quarter of the four named rows' sum. -/
theorem real_weighted_sum (r : Fin 512 → ℝ) (q : Fin 4 → Fin 512) :
    ∑ l : Fin 512, ((((0 + (if q 0 = l then (1 / 4 : ℝ) else 0)) + (if q 1 = l then (1 / 4 : ℝ) else 0))
        + (if q 2 = l then (1 / 4 : ℝ) else 0)) + (if q 3 = l then (1 / 4 : ℝ) else 0)) * r l
      = (∑ s : Fin 4, r (q s)) * (1 / 4) := by
  simp only [add_mul, zero_mul, zero_add, Finset.sum_add_distrib, sum_indicator_mul, Fin.sum_univ_four]
  ring

/-- THE LAW. For finite token values and position words below 512, the kernel's weighted sum over all 512 rows is the
    specification's mean of the four named rows. -/
theorem weighted_sum_eq (x : Fin 512 → EReal) (hx : ∀ l, ∃ r : ℝ, x l = (r : EReal)) (p : Fin 4 → BitVec 32)
    (hp : ∀ s, (p s).toNat < 512) :
    ∑ l : Fin 512, weight p l * x l = Ideal.div (∑ s : Fin 4, x (row (p s))) (Ideal.ofBits .f32 0x40800000#32) := by
  choose r hr using hx
  have hl : ∀ l : Fin 512, weight p l * x l
      = ((((((0 + (if row (p 0) = l then (1 / 4 : ℝ) else 0)) + (if row (p 1) = l then (1 / 4 : ℝ) else 0))
        + (if row (p 2) = l then (1 / 4 : ℝ) else 0)) + (if row (p 3) = l then (1 / 4 : ℝ) else 0)) * r l : ℝ) : EReal) := by
    intro l
    unfold weight
    rw [share_eq (hp 0), share_eq (hp 1), share_eq (hp 2), share_eq (hp 3), hr l, Ideal.ofBits_zero_f32]
    simp only [EReal.coe_mul, EReal.coe_add, EReal.coe_zero]
  rw [Finset.sum_congr rfl fun l _ => hl l, ← coe_sum, real_weighted_sum r fun s => row (p s)]
  rw [ofBits_four, Ideal.div_coe (by norm_num : (4 : ℝ) ≠ 0)]
  simp only [hr]
  rw [← coe_sum, ← EReal.coe_mul]

end Cert.SpanMean

end
-- ==== Proof.KernelPay.lean ====
/-
  The kernel body's two stored values, read at an index of the block, at the exact instance.

  The first store is a matrix product: for the block's batch row `b`, mention `em` (entity-major, 0 … 255) and column `h`,
      pay (b, em, h) = ∑ l < 512, W (b, em, l) * t (b, l, h),
  where `t` is the token block and `W` the weight the body accumulates from zero: for each of the four position columns
  `s` it adds a quarter where the position word `pos (b, em, s)`, broadcast along `l`, equals the lane number `l` (an iota
  broadcast along `b` and `em`), and zero elsewhere. So `W (b, em, ·)` is the specification's `weight` of the mention's four
  words.

  The second store regroups the 256 mentions as 32 entities of 8, sums over the 8 and divides by 8:
      pay' (b, e, h) = (∑ m < 8, pay (b, 8e + m, h)) / 8.
-/
import proofs.«406867_j88132728914534_3_alg».proof.Proof.Gen.KernelIdeal.Skeleton
import proofs.«406867_j88132728914534_3_alg».proof.Proof.Spec
import Idealize.ShloMosaic.Lib.Pipeline.Value
import Idealize.ShloMosaic.PureOps.Ideal.Laws

noncomputable section

open scoped BigOperators

namespace Cert.SpanMean.Kernel

open Cert.KernelIdeal Cert.KernelIdeal.Gen
open Idealize.ShloMosaic Idealize.ShloMosaic.ValueIdx Cert.SpanMean

/-! ## The matrix product's operand indices, axis by axis -/

theorem lhs_batch (j : S8x256x768.Idx) (k : dot_S8x256x512_S8x512x768_S8x256x768_2_1_1_2_0_0.contr.Idx) :
    (dot_S8x256x512_S8x512x768_S8x256x768_2_1_1_2_0_0.lhsIdx j k 0).val = (j 0).val := by
  unfold DotDims.lhsIdx
  rw [dif_pos (by decide)]
  rfl

theorem lhs_free (j : S8x256x768.Idx) (k : dot_S8x256x512_S8x512x768_S8x256x768_2_1_1_2_0_0.contr.Idx) :
    (dot_S8x256x512_S8x512x768_S8x256x768_2_1_1_2_0_0.lhsIdx j k 1).val = (j 1).val := by
  unfold DotDims.lhsIdx
  rw [dif_neg (by decide), dif_pos (by decide)]
  rfl

theorem lhs_contr (j : S8x256x768.Idx) (k : dot_S8x256x512_S8x512x768_S8x256x768_2_1_1_2_0_0.contr.Idx) :
    (dot_S8x256x512_S8x512x768_S8x256x768_2_1_1_2_0_0.lhsIdx j k 2).val = (k ⟨0, by decide⟩).val :=
  DotDims.lhsIdx_val_of_single _ (cl := 2) rfl j k

theorem rhs_batch (j : S8x256x768.Idx) (k : dot_S8x256x512_S8x512x768_S8x256x768_2_1_1_2_0_0.contr.Idx) :
    (dot_S8x256x512_S8x512x768_S8x256x768_2_1_1_2_0_0.rhsIdx j k 0).val = (j 0).val := by
  unfold DotDims.rhsIdx
  rw [dif_pos (by decide)]
  rfl

theorem rhs_contr (j : S8x256x768.Idx) (k : dot_S8x256x512_S8x512x768_S8x256x768_2_1_1_2_0_0.contr.Idx) :
    (dot_S8x256x512_S8x512x768_S8x256x768_2_1_1_2_0_0.rhsIdx j k 1).val = (k ⟨0, by decide⟩).val :=
  DotDims.rhsIdx_val_of_single _ (cr := 1) rfl j k

theorem rhs_free (j : S8x256x768.Idx) (k : dot_S8x256x512_S8x512x768_S8x256x768_2_1_1_2_0_0.contr.Idx) :
    (dot_S8x256x512_S8x512x768_S8x256x768_2_1_1_2_0_0.rhsIdx j k 2).val = (j 2).val := by
  unfold DotDims.rhsIdx
  rw [dif_neg (by decide), dif_pos (by decide)]
  rfl

/-- The contraction index set is the 512 lanes. -/
abbrev lanes : dot_S8x256x512_S8x512x768_S8x256x768_2_1_1_2_0_0.contr.Idx ≃ Fin 512 :=
  contrEquiv1 dot_S8x256x512_S8x512x768_S8x256x768_2_1_1_2_0_0 512 rfl rfl

/-- At lane `l` the left operand is read at `(b, em, l)` … -/
theorem lhs_at (b : Fin 8) (em : Fin 256) (h : Fin 768) (l : Fin 512) :
    dot_S8x256x512_S8x512x768_S8x256x768_2_1_1_2_0_0.lhsIdx (ix3 b em h) (lanes.symm l) = ix3 b em l := by
  funext a; refine Fin.ext ?_
  match a with
  | ⟨0, _⟩ => exact lhs_batch _ _
  | ⟨1, _⟩ => exact lhs_free _ _
  | ⟨2, _⟩ => exact (lhs_contr _ _).trans (contrEquiv1_symm_val _ 512 rfl rfl l)

/-- … and the right operand at `(b, l, h)`. -/
theorem rhs_at (b : Fin 8) (em : Fin 256) (h : Fin 768) (l : Fin 512) :
    dot_S8x256x512_S8x512x768_S8x256x768_2_1_1_2_0_0.rhsIdx (ix3 b em h) (lanes.symm l) = ix3 b l h := by
  funext a; refine Fin.ext ?_
  match a with
  | ⟨0, _⟩ => exact rhs_batch _ _
  | ⟨1, _⟩ => exact (rhs_contr _ _).trans (contrEquiv1_symm_val _ 512 rfl rfl l)
  | ⟨2, _⟩ => exact rhs_free _ _

/-! ## The two broadcasts the weights compare -/

/-- Position column `c`, sliced out and broadcast along the lanes, reads the position word at `(b, em, c)`. -/
theorem column_apply (v1 : IVec S8x256x4 32) (off : Fin 3 → Nat) (hs : S8x256x4.Slices off S8x256x1) (c : Fin 4)
    (hc : off = ![0, 0, c.val]) (b : Fin 8) (em : Fin 256) (l : Fin 512) :
    broadcastTo S8x256x512 (extractStridedSlice S8x256x1 off v1 hs) broadcasts_S8x256x1_S8x256x512 (ix3 b em l)
      = v1 (ix3 b em c) := by
  rw [broadcastTo_apply _ broadcasts_S8x256x1_S8x256x512 (ix3 b em l) (ix3 b em (0 : Fin 1)) (fun a => by
    match a with
    | ⟨0, _⟩ => show b.val = if (8 : Nat) = 1 then 0 else b.val; rw [if_neg (by decide)]
    | ⟨1, _⟩ => show em.val = if (256 : Nat) = 1 then 0 else em.val; rw [if_neg (by decide)]
    | ⟨2, _⟩ => show (0 : Nat) = if (1 : Nat) = 1 then 0 else l.val; rw [if_pos rfl])]
  subst hc
  exact extractStridedSlice_apply _ v1 hs (ix3 b em (0 : Fin 1)) (ix3 b em c) (fun a => by
    match a with
    | ⟨0, _⟩ => show b.val = 0 + b.val; rw [Nat.zero_add]
    | ⟨1, _⟩ => show em.val = 0 + em.val; rw [Nat.zero_add]
    | ⟨2, _⟩ => show c.val = c.val + 0; rw [Nat.add_zero])

/-- The lane iota, broadcast along batch rows and mentions, reads the lane number's word. -/
theorem lane_apply (b : Fin 8) (em : Fin 256) (l : Fin 512) :
    broadcastTo S8x256x512 (iota .tc S1x1x512 32 [2] iota_S1x1x512_d2_w32) broadcasts_S1x1x512_S8x256x512 (ix3 b em l)
      = BitVec.ofNat 32 l.val := by
  rw [broadcastTo_apply _ broadcasts_S1x1x512_S8x256x512 (ix3 b em l) (ix3 (0 : Fin 1) (0 : Fin 1) l) (fun a => by
    match a with
    | ⟨0, _⟩ => show (0 : Nat) = if (1 : Nat) = 1 then 0 else b.val; rw [if_pos rfl]
    | ⟨1, _⟩ => show (0 : Nat) = if (1 : Nat) = 1 then 0 else em.val; rw [if_pos rfl]
    | ⟨2, _⟩ => show l.val = if (512 : Nat) = 1 then 0 else l.val; rw [if_neg (by decide)]),
    iota_single_apply]

/-- A word comparison of two vectors at an index compares the elements. -/
theorem cmpi_apply {s : Shape} {w : Nat} (p : CmpIPredicate) (a c : IVec s w) (i : s.Idx) :
    cmpi p a c i = IntOp.cmpi p (a i) (c i) := rfl

/-! ## The first store: the weighted sum -/

/-- THE MENTION PAYLOAD AT AN INDEX: the weighted sum over the 512 lanes of the token block's column, the weights the
    specification's `weight` of the mention's four position words. -/
theorem pay_mention_apply (x0 : Vec Ideal S8x256x4 .i32) (x1 : Vec Ideal S8x512x768 .f32) (b : Fin 8) (em : Fin 256)
    (h : Fin 768) :
    k0_pay2 (F := Ideal) x0 x1 (ix3 b em h)
      = ∑ l : Fin 512, weight (fun s => x0 (ix3 b em s)) l * x1 (ix3 b l h) := by
  unfold k0_pay2
  simp only [matmul]
  rw [Ideal.matmul_constant_zero_apply, ← Equiv.sum_comp lanes.symm]
  refine Finset.sum_congr rfl fun l _ => ?_
  rw [lhs_at, rhs_at]
  refine congrArg (· * x1 (ix3 b l h)) ?_
  simp only [addf_apply, select_apply, broadcast_apply, cmpi_apply, shapeCast_self]
  rw [column_apply x0 ![0, 0, 0] _ 0 rfl, column_apply x0 ![0, 0, 1] _ 1 rfl, column_apply x0 ![0, 0, 2] _ 2 rfl,
    column_apply x0 ![0, 0, 3] _ 3 rfl, lane_apply]
  rfl

/-! ## The second store: the mean over an entity's eight mentions -/

/-- THE ENTITY PAYLOAD AT AN INDEX: the sum of the entity's eight mention rows, divided by eight. -/
theorem pay_entity_apply (v : FVec Ideal S8x256x768 .f32) (b : Fin 8) (e : Fin 32) (h : Fin 768) :
    k0_pay1 (F := Ideal) v (ix3 b e h)
      = Ideal.div (∑ mm : Fin 8, v (ix3 b ⟨e.val * 8 + mm.val, by omega⟩ h)) (Ideal.ofBits .f32 0x41000000#32) := by
  unfold k0_pay1
  refine congrArg (fun z => Ideal.div z (Ideal.ofBits .f32 0x41000000#32))
    ((Ideal.multiReduction_add_single _ _ reduces_S8x32x8x768_S8x32x768 _ _ (ix3 b e h)).trans ?_)
  refine Finset.sum_congr rfl fun (mm : Fin 8) _ => ?_
  have hl : reduces_S8x32x8x768_S8x32x768.lift (ix3 b e h) mm = ix4 b e mm h := by
    funext a; refine Fin.ext ?_
    match a with
    | ⟨0, _⟩ => rfl
    | ⟨1, _⟩ => rfl
    | ⟨2, _⟩ => rfl
    | ⟨3, _⟩ => rfl
  rw [hl]
  refine shapeCast_apply v _ (ix4 b e mm h) (ix3 b ⟨e.val * 8 + mm.val, by omega⟩ h) ?_
  rw [Shape.rowMajor_val_three, Shape.rowMajor_val_four]
  show (b.val * 256 + (e.val * 8 + mm.val)) * 768 + h.val = ((b.val * 32 + e.val) * 8 + mm.val) * 768 + h.val
  omega

end Cert.SpanMean.Kernel

end
-- ==== Proof.Flat.lean ====
/-
  The kernel's two output arrays as whole-array functions, and why they are the specification's.

  The kernel sees the positions as a flat array `P' : [32, 256, 4]` (mention number `8e + m`) and writes
      mentionFlat X P' (b, em, h) = ∑ l < 512, weight (P' (b, em, ·)) l * X (b, l, h)          : [32, 256, 768]
      entityFlat  X P' (b, e, h)  = (∑ m < 8, mentionFlat X P' (b, 8e + m, h)) / 8            : [32, 32, 768].
  With `P'` the row-major regrouping of `P : [32, 32, 8, 4]`, so that `P' (b, 8e + m, s) = P (b, e, m, s)`, finite token
  values and position words below 512, the weighted sum is the mean of the four named rows (`weighted_sum_eq`): the
  flat mention array regrouped to `[32, 32, 8, 768]` is `mention X P`, and the entity array is `entity X P`.
-/
import proofs.«406867_j88132728914534_3_alg».proof.Proof.Spec
import Idealize.ShloMosaic.Lib.Pipeline.Value

noncomputable section

open scoped BigOperators

namespace Cert.SpanMean

open Idealize.ShloMosaic Idealize.ShloMosaic.ValueIdx

/-- The mention array as the kernel writes it: per flat mention, the weighted sum over all 512 token rows. -/
def mentionFlat (X : (⟨3, ![32, 512, 768]⟩ : Shape).Idx → EReal) (P' : (⟨3, ![32, 256, 4]⟩ : Shape).Idx → BitVec 32) :
    (⟨3, ![32, 256, 768]⟩ : Shape).Idx → EReal := fun i =>
  ∑ l : Fin 512, weight (fun s => P' (ix3 (i 0) (i 1) s)) l * X (ix3 (i 0) l (i 2))

/-- The entity array as the kernel writes it: the mean of the entity's eight flat mentions. -/
def entityFlat (X : (⟨3, ![32, 512, 768]⟩ : Shape).Idx → EReal) (P' : (⟨3, ![32, 256, 4]⟩ : Shape).Idx → BitVec 32) :
    (⟨3, ![32, 32, 768]⟩ : Shape).Idx → EReal := fun i =>
  Ideal.div (∑ mm : Fin 8, mentionFlat X P' (ix3 (i 0) ⟨(i 1).val * 8 + mm.val, by have : (i 1).val < 32 := (i 1).isLt; omega⟩ (i 2)))
    (Ideal.ofBits .f32 0x41000000#32)

section Bridge

variable (X : (⟨3, ![32, 512, 768]⟩ : Shape).Idx → EReal) (P : (⟨4, ![32, 32, 8, 4]⟩ : Shape).Idx → BitVec 32)
  (hc : (⟨4, ![32, 32, 8, 4]⟩ : Shape).ShapeCasts ⟨3, ![32, 256, 4]⟩)

/-- The regrouped positions at flat mention `8e + m` are the positions of mention `m` of entity `e`. -/
theorem flat_position (b e : Fin 32) (mm : Fin 8) (s : Fin 4) :
    shapeCast (⟨3, ![32, 256, 4]⟩ : Shape) P hc (ix3 b ⟨e.val * 8 + mm.val, by omega⟩ s) = P (ix4 b e mm s) := by
  refine shapeCast_apply P hc _ (ix4 b e mm s) ?_
  rw [Shape.rowMajor_val_three, Shape.rowMajor_val_four]
  show ((b.val * 32 + e.val) * 8 + mm.val) * 4 + s.val = (b.val * 256 + (e.val * 8 + mm.val)) * 4 + s.val
  omega

/-- ONE FLAT MENTION IS THE SPECIFICATION'S: for finite token values and position words below 512. -/
theorem mentionFlat_apply (hx : ∀ i, ∃ r : ℝ, X i = (r : EReal)) (hp : ∀ j, (P j).toNat < 512)
    (b e : Fin 32) (mm : Fin 8) (h : Fin 768) :
    mentionFlat X (shapeCast (⟨3, ![32, 256, 4]⟩ : Shape) P hc) (ix3 b ⟨e.val * 8 + mm.val, by omega⟩ h)
      = mention X P (ix4 b e mm h) := by
  unfold mentionFlat mention
  have hw : (fun s : Fin 4 => shapeCast (⟨3, ![32, 256, 4]⟩ : Shape) P hc (ix3 b ⟨e.val * 8 + mm.val, by omega⟩ s))
      = fun s => P (ix4 b e mm s) := funext fun s => flat_position P hc b e mm s
  show ∑ l : Fin 512, weight (fun s : Fin 4 => shapeCast (⟨3, ![32, 256, 4]⟩ : Shape) P hc (ix3 b ⟨e.val * 8 + mm.val, by omega⟩ s)) l
      * X (ix3 b l h) = Ideal.div (∑ s : Fin 4, X (ix3 b (row (P (ix4 b e mm s))) h)) (Ideal.ofBits .f32 0x40800000#32)
  rw [hw]
  exact weighted_sum_eq (fun l => X (ix3 b l h)) (fun l => hx _) (fun s => P (ix4 b e mm s)) (fun s => hp _)

/-- The flat mention array, regrouped by entity, is the specification's mention array. -/
theorem mentionFlat_regrouped (hx : ∀ i, ∃ r : ℝ, X i = (r : EReal)) (hp : ∀ j, (P j).toNat < 512)
    (hc' : (⟨3, ![32, 256, 768]⟩ : Shape).ShapeCasts ⟨4, ![32, 32, 8, 768]⟩) :
    shapeCast (⟨4, ![32, 32, 8, 768]⟩ : Shape) (mentionFlat X (shapeCast (⟨3, ![32, 256, 4]⟩ : Shape) P hc)) hc'
      = mention X P := by
  funext i
  obtain ⟨b, e, mm, h, rfl⟩ : ∃ (b e : Fin 32) (mm : Fin 8) (h : Fin 768), i = ix4 b e mm h :=
    ⟨i 0, i 1, i 2, i 3, eq_ix4 i⟩
  rw [← mentionFlat_apply X P hc hx hp b e mm h]
  refine shapeCast_apply _ hc' (ix4 b e mm h) (ix3 b ⟨e.val * 8 + mm.val, by omega⟩ h) ?_
  rw [Shape.rowMajor_val_three, Shape.rowMajor_val_four]
  show (b.val * 256 + (e.val * 8 + mm.val)) * 768 + h.val = ((b.val * 32 + e.val) * 8 + mm.val) * 768 + h.val
  omega

/-- The kernel's entity array is the specification's. -/
theorem entityFlat_eq (hx : ∀ i, ∃ r : ℝ, X i = (r : EReal)) (hp : ∀ j, (P j).toNat < 512) :
    entityFlat X (shapeCast (⟨3, ![32, 256, 4]⟩ : Shape) P hc) = entity X P := by
  funext i
  obtain ⟨b, e, h, rfl⟩ : ∃ (b e : Fin 32) (h : Fin 768), i = ix3 b e h := ⟨i 0, i 1, i 2, eq_ix3 i⟩
  unfold entityFlat entity
  refine congrArg (fun z => Ideal.div z _) (Finset.sum_congr rfl fun mm _ => ?_)
  exact mentionFlat_apply X P hc hx hp b e mm h

end Bridge

end Cert.SpanMean

end
-- ==== Proof.KernelValue.lean ====
/-
  What the idealized kernel's run leaves in its three results, as functions of the two arguments.

  The region has four grid points; point `t` works on batch rows `8t … 8t + 7`: every window's block index is `(t, 0, 0)`,
  so element `(b, ·, ·)` of a block is element `(8t + b, ·, ·)` of its array. Through that correspondence the body's
  first store at point `t` is block `t` of `mentionFlat` of the token array and the flat position array, and its second
  store block `t` of `entityFlat`; the four blocks tile each output array (row `r` lies in block `r / 8`), so after the run
  the arrays ARE those two functions. Before the region the host regroups the positions `[32, 32, 8, 4] → [32, 256, 4]`;
  after it, it regroups the flat mention array `[32, 256, 768] → [32, 32, 8, 768]` and writes the all-ones mask.
-/
import proofs.«406867_j88132728914534_3_alg».proof.Proof.Gen.KernelIdeal.Frame
import proofs.«406867_j88132728914534_3_alg».proof.Proof.KernelPay
import proofs.«406867_j88132728914534_3_alg».proof.Proof.Flat
import Idealize.ShloMosaic.Lib.Pipeline.Value
import Idealize.ShloMosaic.Lib.StableHlo.Run

set_option maxRecDepth 16384

noncomputable section

open scoped BigOperators

namespace Cert.SpanMean.KernelValue

open Cert.KernelIdeal Cert.KernelIdeal.Gen
open Idealize.ShloMosaic Idealize.ShloMosaic.TcCoe Idealize.SL.Sem Idealize.ShloMosaic.ValueIdx Cert.SpanMean
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Every window's block index at grid point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 4 :=
  lt_of_lt_of_eq t.isLt (show cfg0.N = 4 from N_0)

/-! ## One block of each output, from the blocks of the inputs -/

/-- The body's first store on blocks that are batch rows `r` of the arrays is batch row `r` of `mentionFlat`. -/
theorem block_mention (X : S32x512x768.Idx → EReal) (P' : S32x256x4.Idx → BitVec 32) (x0 : Vec Ideal S8x256x4 .i32)
    (x1 : Vec Ideal S8x512x768 .f32) (r : Fin 32) (b : Fin 8) (em : Fin 256) (h : Fin 768)
    (e0 : ∀ s : Fin 4, x0 (ix3 b em s) = P' (ix3 r em s)) (e1 : ∀ l : Fin 512, x1 (ix3 b l h) = X (ix3 r l h)) :
    k0_pay2 (F := Ideal) x0 x1 (ix3 b em h) = mentionFlat X P' (ix3 r em h) := by
  rw [Kernel.pay_mention_apply]
  unfold mentionFlat
  refine Finset.sum_congr rfl fun l _ => ?_
  rw [e1 l, show (fun s => x0 (ix3 b em s)) = fun s => P' (ix3 r em s) from funext e0]

/-- The body's second store likewise is batch row `r` of `entityFlat`. -/
theorem block_entity (X : S32x512x768.Idx → EReal) (P' : S32x256x4.Idx → BitVec 32) (x0 : Vec Ideal S8x256x4 .i32)
    (x1 : Vec Ideal S8x512x768 .f32) (r : Fin 32) (b : Fin 8) (e : Fin 32) (h : Fin 768)
    (e0 : ∀ (em : Fin 256) (s : Fin 4), x0 (ix3 b em s) = P' (ix3 r em s))
    (e1 : ∀ l : Fin 512, x1 (ix3 b l h) = X (ix3 r l h)) :
    k0_pay1 (F := Ideal) (k0_pay2 (F := Ideal) x0 x1) (ix3 b e h) = entityFlat X P' (ix3 r e h) := by
  rw [Kernel.pay_entity_apply]
  unfold entityFlat
  refine congrArg (fun z => Ideal.div z _) (Finset.sum_congr rfl fun mm _ => ?_)
  exact block_mention X P' x0 x1 r b _ h (fun s => e0 _ s) e1

/-! ## What each grid point writes back -/

/-- Element `(b, em, s)` of the position block at point `t` is element `(8t + b, em, s)` of the flat position array. -/
theorem pos_block (c : Dev nD) (t : Fin cfg0.N) (b : Fin 8) (em : Fin 256) (s : Fin 4) :
    iblk m c 0 t (ix3 b em s) = V m c main_v0 (ix3 ⟨t.val * 8 + b.val, by have := point_lt t; omega⟩ em s) := by
  obtain ⟨e00, e01, e02, -⟩ := idx_facts t
  show V m c main_v0 (((cfg0.win 0).blk t).view.emb (ix3 b em s)) = _
  refine congrArg (V m c main_v0) (funext fun a => Fin.ext ?_)
  match a with
  | ⟨0, _⟩ => show win0_0.index t (0 : Fin 3) * 8 + 1 * b.val = t.val * 8 + b.val; omega
  | ⟨1, _⟩ => show win0_0.index t (1 : Fin 3) * 256 + 1 * em.val = em.val; omega
  | ⟨2, _⟩ => show win0_0.index t (2 : Fin 3) * 4 + 1 * s.val = s.val; omega

/-- Element `(b, l, h)` of the token block at point `t` is element `(8t + b, l, h)` of the token array. -/
theorem tok_block (c : Dev nD) (t : Fin cfg0.N) (b : Fin 8) (l : Fin 512) (h : Fin 768) :
    iblk m c 1 t (ix3 b l h) = V m c main_arg0 (ix3 ⟨t.val * 8 + b.val, by have := point_lt t; omega⟩ l h) := by
  obtain ⟨-, -, -, e10, e11, e12, -⟩ := idx_facts t
  show V m c main_arg0 (((cfg0.win 1).blk t).view.emb (ix3 b l h)) = _
  refine congrArg (V m c main_arg0) (funext fun a => Fin.ext ?_)
  match a with
  | ⟨0, _⟩ => show win0_1.index t (0 : Fin 3) * 8 + 1 * b.val = t.val * 8 + b.val; omega
  | ⟨1, _⟩ => show win0_1.index t (1 : Fin 3) * 512 + 1 * l.val = l.val; omega
  | ⟨2, _⟩ => show win0_1.index t (2 : Fin 3) * 768 + 1 * h.val = h.val; omega

/-- POINT `t` WRITES BACK block `t` of `mentionFlat` of the arrays as the region finds them. -/
theorem flushed_mention (c : Dev nD) (t : Fin cfg0.N) :
    (dats m 0 c).flushed 2 t
      = ((cfg0.win 2).blk t).view.read (Elt Ideal) (mentionFlat (V m c main_arg0) (V m c main_v0)) := by
  show (cfg0.win 2).cut (grid0.coords t) ((dats m 0 c).after 2 t) = _
  rw [after0_2]
  unfold out0_2
  rw [View.canon_unit_zero hz]
  simp only [View.ld_unit_zero (S := S8x256x4) hz, View.ld_unit_zero (S := S8x512x768) hz]
  obtain ⟨-, -, -, -, -, -, e20, e21, e22, -⟩ := idx_facts t
  show (k0_pay2 (F := Ideal) (iblk m c 0 t) (iblk m c 1 t) : S8x256x768.Idx → EReal)
      = fun j => mentionFlat (V m c main_arg0) (V m c main_v0) (((cfg0.win 2).blk t).view.emb j)
  funext j
  obtain ⟨b, em, h, rfl⟩ : ∃ (b : Fin 8) (em : Fin 256) (h : Fin 768), j = ix3 b em h := ⟨j 0, j 1, j 2, eq_ix3 j⟩
  have hE : ((cfg0.win 2).blk t).view.emb (ix3 b em h)
      = ix3 ⟨t.val * 8 + b.val, by have := point_lt t; omega⟩ em h := by
    funext a; apply Fin.ext
    match a with
    | ⟨0, _⟩ => show win0_2.index t (0 : Fin 3) * 8 + 1 * b.val = t.val * 8 + b.val; omega
    | ⟨1, _⟩ => show win0_2.index t (1 : Fin 3) * 256 + 1 * em.val = em.val; omega
    | ⟨2, _⟩ => show win0_2.index t (2 : Fin 3) * 768 + 1 * h.val = h.val; omega
  rw [hE]
  exact block_mention _ _ (iblk m c 0 t) (iblk m c 1 t) _ b em h (fun s => pos_block m c t b em s)
    (fun l => tok_block m c t b l h)

/-- POINT `t` WRITES BACK block `t` of `entityFlat` of the arrays as the region finds them. -/
theorem flushed_entity (c : Dev nD) (t : Fin cfg0.N) :
    (dats m 0 c).flushed 3 t
      = ((cfg0.win 3).blk t).view.read (Elt Ideal) (entityFlat (V m c main_arg0) (V m c main_v0)) := by
  show (cfg0.win 3).cut (grid0.coords t) ((dats m 0 c).after 3 t) = _
  rw [after0_3]
  unfold out0_3
  rw [View.canon_unit_zero hz]
  simp only [View.ld_unit_zero (S := S8x256x4) hz, View.ld_unit_zero (S := S8x512x768) hz]
  obtain ⟨-, -, -, -, -, -, -, -, -, e30, e31, e32⟩ := idx_facts t
  show (k0_pay1 (F := Ideal) (k0_pay2 (F := Ideal) (iblk m c 0 t) (iblk m c 1 t)) : S8x32x768.Idx → EReal)
      = fun j => entityFlat (V m c main_arg0) (V m c main_v0) (((cfg0.win 3).blk t).view.emb j)
  funext j
  obtain ⟨b, e, h, rfl⟩ : ∃ (b : Fin 8) (e : Fin 32) (h : Fin 768), j = ix3 b e h := ⟨j 0, j 1, j 2, eq_ix3 j⟩
  have hE : ((cfg0.win 3).blk t).view.emb (ix3 b e h)
      = ix3 ⟨t.val * 8 + b.val, by have := point_lt t; omega⟩ e h := by
    funext a; apply Fin.ext
    match a with
    | ⟨0, _⟩ => show win0_3.index t (0 : Fin 3) * 8 + 1 * b.val = t.val * 8 + b.val; omega
    | ⟨1, _⟩ => show win0_3.index t (1 : Fin 3) * 32 + 1 * e.val = e.val; omega
    | ⟨2, _⟩ => show win0_3.index t (2 : Fin 3) * 768 + 1 * h.val = h.val; omega
  rw [hE]
  exact block_entity _ _ (iblk m c 0 t) (iblk m c 1 t) _ b e h (fun em s => pos_block m c t b em s)
    (fun l => tok_block m c t b l h)

/-! ## The blocks tile the arrays -/

theorem mem_blk_mention (t : Fin cfg0.N) (i : S32x256x768.Idx) :
    i ∈ ((cfg0.win 2).blk t).view.set ↔ ∀ a : Fin 3, win0_2.index t a * S8x256x768.size a ≤ (i a).val
      ∧ (i a).val < win0_2.index t a * S8x256x768.size a + S8x256x768.size a := by
  show i ∈ ((View.whole main_v1_0).slice (win0_2.rect t)).set ↔ _
  rw [View.set_slice_whole, Rect.mem_set_unit]
  exact Iff.rfl

theorem mem_blk_entity (t : Fin cfg0.N) (i : S32x32x768.Idx) :
    i ∈ ((cfg0.win 3).blk t).view.set ↔ ∀ a : Fin 3, win0_3.index t a * S8x32x768.size a ≤ (i a).val
      ∧ (i a).val < win0_3.index t a * S8x32x768.size a + S8x32x768.size a := by
  show i ∈ ((View.whole main_v1_1).slice (win0_3.rect t)).set ↔ _
  rw [View.set_slice_whole, Rect.mem_set_unit]
  exact Iff.rfl

/-- Batch row `r` of the mention array lies in the block of point `r / 8`. -/
theorem cover_mention (i : S32x256x768.Idx) :
    ∃ t : Fin cfg0.N, (cfg0.win 2).flush t = true ∧ i ∈ ((cfg0.win 2).blk t).view.set := by
  have h0 : (i 0).val < 32 := (i 0).isLt
  have h1 : (i 1).val < 256 := (i 1).isLt
  have h2 : (i 2).val < 768 := (i 2).isLt
  let t : Fin cfg0.N := ⟨(i 0).val / 8, by rw [show cfg0.N = 4 from N_0]; omega⟩
  obtain ⟨-, -, -, -, -, -, e20, e21, e22, -⟩ := idx_facts t
  have ht : t.val = (i 0).val / 8 := rfl
  refine ⟨t, flush0_2 t, ?_⟩
  rw [mem_blk_mention]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 256 ≤ (i 1).val ∧ (i 1).val < win0_2.index t (1 : Fin 3) * 256 + 256; omega
  | ⟨2, _⟩ => show win0_2.index t (2 : Fin 3) * 768 ≤ (i 2).val ∧ (i 2).val < win0_2.index t (2 : Fin 3) * 768 + 768; omega

/-- Batch row `r` of the entity array lies in the block of point `r / 8`. -/
theorem cover_entity (i : S32x32x768.Idx) :
    ∃ t : Fin cfg0.N, (cfg0.win 3).flush t = true ∧ i ∈ ((cfg0.win 3).blk t).view.set := by
  have h0 : (i 0).val < 32 := (i 0).isLt
  have h1 : (i 1).val < 32 := (i 1).isLt
  have h2 : (i 2).val < 768 := (i 2).isLt
  let t : Fin cfg0.N := ⟨(i 0).val / 8, by rw [show cfg0.N = 4 from N_0]; omega⟩
  obtain ⟨-, -, -, -, -, -, -, -, -, e30, e31, e32⟩ := idx_facts t
  have ht : t.val = (i 0).val / 8 := rfl
  refine ⟨t, flush0_3 t, ?_⟩
  rw [mem_blk_entity]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 32 ≤ (i 1).val ∧ (i 1).val < win0_3.index t (1 : Fin 3) * 32 + 32; omega
  | ⟨2, _⟩ => show win0_3.index t (2 : Fin 3) * 768 ≤ (i 2).val ∧ (i 2).val < win0_3.index t (2 : Fin 3) * 768 + 768; omega

/-! ## The arrays after the run -/

/-- The flat position array the region finds: the host's regrouping of the position argument. -/
theorem V_pos (c : Dev nD) :
    (V m c main_v0 : S32x256x4.Idx → BitVec 32)
      = shapeCast S32x256x4 (m ((c.tc : Thread nD τ).loc main_arg1)) shapeCasts_S32x32x8x4_S32x256x4 := by
  show StableHlo.after hostOps0 (fun b => m (c, b)) (Proc.devRef .tc main_v0) = _
  after_results
  rfl

/-- The mention array after the run. -/
theorem final_mention (c : Dev nD) :
    (dats m 0 c).arrAt 2 cfg0.N = mentionFlat (m ((c.tc : Thread nD τ).loc main_arg0))
      (shapeCast S32x256x4 (m ((c.tc : Thread nD τ).loc main_arg1)) shapeCasts_S32x32x8x4_S32x256x4) := by
  rw [← V_pos m c, ← V_main_arg0 m c]
  exact (dats m 0 c).arrAt_eq_of_cover 2 _ (fun t _ => flushed_mention m c t) cover_mention

/-- The entity array after the run. -/
theorem final_entity (c : Dev nD) :
    (dats m 0 c).arrAt 3 cfg0.N = entityFlat (m ((c.tc : Thread nD τ).loc main_arg0))
      (shapeCast S32x256x4 (m ((c.tc : Thread nD τ).loc main_arg1)) shapeCasts_S32x32x8x4_S32x256x4) := by
  rw [← V_pos m c, ← V_main_arg0 m c]
  exact (dats m 0 c).arrAt_eq_of_cover 3 _ (fun t _ => flushed_entity m c t) cover_entity

end Cert.SpanMean.KernelValue

end
-- ==== Proof.KernelRun.lean ====
/-
  The idealized kernel's run, with every result named as a function of the arguments.

  The entity result is one of the region's own arrays. The mention result is written after the region by the host:
  the flat mention array regrouped `[32, 256, 768] → [32, 32, 8, 768]`. The mask is the host's all-ones constant. The
  arguments end as they began.
-/
import proofs.«406867_j88132728914534_3_alg».proof.Proof.KernelValue

set_option maxRecDepth 16384

noncomputable section

namespace Cert.SpanMean.KernelRun

open Cert.KernelIdeal Cert.KernelIdeal.Gen
open Idealize.ShloMosaic Idealize.ShloMosaic.TcCoe Idealize.SL.Sem Idealize.ShloMosaic.ValueIdx Cert.SpanMean
open Idealize.ShloMosaic.Pipeline (Dat)

variable (m : (ℓ : Loc nD τ sig) → Buf (Elt Ideal) ℓ) (ρ : Dev nD → PrngReg)

/-- After the region the host regroups the flat mention array by entity. -/
theorem tail_mention (c : Dev nD) :
    Pipeline.afterTail₀ cfgs (dats m) 0 (V0 m) [hostOps1] c main_v2
      = shapeCast S32x32x8x768 ((dats m 0 c).arrAt 2 cfg0.N) shapeCasts_S32x256x768_S32x32x8x768 := by
  unfold Pipeline.afterTail₀
  show StableHlo.after hostOps1 _ (Proc.devRef .tc main_v2) = _
  after_results
  have e : Pipeline.withArrays (cfgs 0).spec c (V0 m c) (fun w => (dats m 0 c).arrAt w (cfgs 0).N)
        (Proc.devRef .tc main_v1_0) = (dats m 0 c).arrAt 2 cfg0.N :=
    Pipeline.withArrays_arr (cfgs 0).spec launch0.win.arr_inj c (V0 m c) (fun w => (dats m 0 c).arrAt w (cfgs 0).N) 2
  rw [e]
  rfl

/-- And writes the all-ones mask. -/
theorem tail_mask (c : Dev nD) :
    Pipeline.afterTail₀ cfgs (dats m) 0 (V0 m) [hostOps1] c main_v3
      = broadcastInDim S32x32x8 ![] bcast_S_S32x32x8 (constant (F := Ideal) S_ .f32 0x3F800000#32) := by
  unfold Pipeline.afterTail₀
  show StableHlo.after hostOps1 _ (Proc.devRef .tc main_v3) = _
  after_results

/-- THE RUN: every weakly fair execution terminates with the entity result at `entityFlat`, the mention result at
    `mentionFlat` regrouped by entity, the mask all ones — each of the token argument and the regrouped position
    argument — and the arguments unchanged. -/
theorem run : θ_run defs (onTc (τ := τ) (main (F := Ideal))) ⟨m, fun _ => 0, ρ⟩ fun r => ∀ c : Dev nD,
      r.2.mem ((c.tc : Thread nD τ).loc main_v1_1)
        = entityFlat (m ((c.tc : Thread nD τ).loc main_arg0))
            (shapeCast S32x256x4 (m ((c.tc : Thread nD τ).loc main_arg1)) shapeCasts_S32x32x8x4_S32x256x4)
      ∧ r.2.mem ((c.tc : Thread nD τ).loc main_v2)
        = shapeCast S32x32x8x768 (mentionFlat (m ((c.tc : Thread nD τ).loc main_arg0))
            (shapeCast S32x256x4 (m ((c.tc : Thread nD τ).loc main_arg1)) shapeCasts_S32x32x8x4_S32x256x4))
            shapeCasts_S32x256x768_S32x32x8x768
      ∧ r.2.mem ((c.tc : Thread nD τ).loc main_v3)
        = broadcastInDim S32x32x8 ![] bcast_S_S32x32x8 (constant (F := Ideal) S_ .f32 0x3F800000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 3).trans (KernelValue.final_entity m c),
      ((h c).2 main_v2 (Pipeline.mem_restRefs_of main_v2 (by decide) (by decide))).trans
        ((tail_mention m c).trans (by rw [KernelValue.final_mention m c])),
      ((h c).2 main_v3 (Pipeline.mem_restRefs_of main_v3 (by decide) (by decide))).trans (tail_mask m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.SpanMean.KernelRun

end
-- ==== Proof.RefSide.lean ====
/-
  The reference program's two float results are the specification's `mention` and `entity`.

  The reference normalises each position word (a negative word has 512 added), gathers the token row the word names —
  StableHLO's gather reads the start index as a signed integer and clamps it into the operand, here into `[0, 511]` —,
  sums the four gathered rows of a mention and divides by four, then sums an entity's eight mentions and divides by
  eight. For a word whose value is below 512 the normalisation does nothing (the word is not negative), so the row read
  is `row` of the word itself, and each stage, read at an index, is the specification's formula term for term.

  The one operation the generated reader leaves unread is the gather, because which element it reads depends on the
  indices' values; `gather_apply` reads it: result element `(b, e, m, s, h)` is the operand at batch `b`, at the row
  its start index `idx (b, e, m, s, 0)` names, at column `h`.
-/
import proofs.«406867_j88132728914534_3_alg».proof.Proof.Gen.ReferenceIdeal.Read
import proofs.«406867_j88132728914534_3_alg».proof.Proof.Spec

noncomputable section

open scoped BigOperators

namespace Cert.SpanMean.Ref

open Cert.ReferenceIdeal Cert.ReferenceIdeal.Gen Cert.ReferenceIdeal.Read
open Idealize.ShloMosaic Idealize.ShloMosaic.ValueIdx Cert.SpanMean

local notation "gd" => gather_S32x512x768_S32x32x8x4x1_S32x32x8x4x768_4_1_0_0_1_4_11768

/-! ## The gather, read at an index -/

/-- On the operand's batch axis the gather reads the result's batch coordinate. -/
theorem operand_batch (idx : IVec S32x32x8x4x1 32) (b e : Fin 32) (mm : Fin 8) (s : Fin 4) (h : Fin 768) :
    (GatherDims.operandIdx gd (ix5 b e mm s h) idx (0 : Fin 3)).val = b.val := by
  show GatherDims.start gd _ idx 0 + GatherDims.batchCoord gd _ 0 + GatherDims.offCoord gd _ 0 = _
  have hb : (0 : Fin 3) ∈ GatherDims.operandBatchingDims gd := by decide
  rw [GatherDims.start_batching gd _ idx 0 hb,
    GatherDims.offCoord_eq_zero gd _ 0 (fun h => ((GatherDims.mem_sKept gd 0).1 h).2 hb)]
  unfold GatherDims.batchCoord
  rw [dif_pos hb]
  simp only [Nat.zero_add, Nat.add_zero]
  rfl

/-- On the operand's column axis (the one kept whole) it reads the result's column coordinate. -/
theorem operand_col (idx : IVec S32x32x8x4x1 32) (b e : Fin 32) (mm : Fin 8) (s : Fin 4) (h : Fin 768) :
    (GatherDims.operandIdx gd (ix5 b e mm s h) idx (2 : Fin 3)).val = h.val := by
  show GatherDims.start gd _ idx 2 + GatherDims.batchCoord gd _ 2 + GatherDims.offCoord gd _ 2 = _
  have hb : (2 : Fin 3) ∉ GatherDims.operandBatchingDims gd := by decide
  have hs : (2 : Fin 3) ∉ GatherDims.startIndexMap gd := by decide
  have hk : (2 : Fin 3) ∈ GatherDims.sKept gd := by decide
  rw [GatherDims.batchCoord_eq_zero gd _ 2 hb]
  unfold GatherDims.start GatherDims.offCoord
  rw [dif_neg hs, dif_pos hk]
  simp only [Nat.zero_add, Nat.add_zero]
  rfl

/-- The start index of result element `(b, e, m, s, h)` sits at `(b, e, m, s, 0)` of the index array. -/
theorem start_at (b e : Fin 32) (mm : Fin 8) (s : Fin 4) (h : Fin 768) :
    GatherDims.siIdx gd (ix5 b e mm s h) ⟨0, by decide⟩ = ix5 b e mm s (0 : Fin 1) := by
  funext a; refine Fin.ext ?_
  match a with
  | ⟨0, _⟩ => rfl
  | ⟨1, _⟩ => rfl
  | ⟨2, _⟩ => rfl
  | ⟨3, _⟩ => rfl
  | ⟨4, _⟩ => rfl

/-- On the operand's row axis (the collapsed one) it reads the start index, signed and clamped into `[0, 511]`. -/
theorem operand_row (idx : IVec S32x32x8x4x1 32) (b e : Fin 32) (mm : Fin 8) (s : Fin 4) (h : Fin 768) :
    (GatherDims.operandIdx gd (ix5 b e mm s h) idx (1 : Fin 3)).val = (row (idx (ix5 b e mm s (0 : Fin 1)))).val := by
  have e1 : (GatherDims.operandIdx gd (ix5 b e mm s h) idx (1 : Fin 3)).val
      = min (idx (GatherDims.siIdx gd (ix5 b e mm s h) ⟨0, by decide⟩)).toInt.toNat 511 := rfl
  rw [e1, start_at]
  rfl

/-- THE GATHER AT AN INDEX: element `(b, e, m, s, h)` is the operand at `(b, row (idx (b, e, m, s, 0)), h)`. -/
theorem gather_apply {α : Type} (x : S32x512x768.Idx → α) (idx : IVec S32x32x8x4x1 32) (b e : Fin 32) (mm : Fin 8)
    (s : Fin 4) (h : Fin 768) :
    Host.gather gd x idx (ix5 b e mm s h) = x (ix3 b (row (idx (ix5 b e mm s (0 : Fin 1)))) h) := by
  unfold Host.gather
  refine congrArg x (funext fun a => Fin.ext ?_)
  match a with
  | ⟨0, _⟩ => exact operand_batch idx b e mm s h
  | ⟨1, _⟩ => exact operand_row idx b e mm s h
  | ⟨2, _⟩ => exact operand_col idx b e mm s h

/-! ## The normalised position word -/

/-- A word whose value is below 512 is not negative: compared signed against zero it is not below. -/
theorem not_neg_of_lt {w : BitVec 32} (hw : w.toNat < 512) : IntOp.cmpi .slt w 0#32 = 0#1 :=
  eq_zero_of_ne_one fun h => by
    have := (StableHlo.Predicate.slt_iff_toNat (a := w) (b := 0#32) (by omega) (by decide)).mp h
    simp at this

/-- So the reference's normalised index array holds, at `(b, e, m, s, 0)`, the position word itself. -/
theorem index_word (x1 : (⟨S32x32x8x4, .i32⟩ : BufTy).Contents (Elt Ideal)) (hp : ∀ j, (x1 j).toNat < 512)
    (b e : Fin 32) (mm : Fin 8) (s : Fin 4) :
    val_main_v5 (F := Ideal) x1 (ix5 b e mm s (0 : Fin 1)) = x1 (ix4 b e mm s) := by
  have hi : idx_main_v5 (ix5 b e mm s (0 : Fin 1)) = ix4 b e mm s := by
    funext a
    match a with
    | ⟨0, _⟩ => rfl
    | ⟨1, _⟩ => rfl
    | ⟨2, _⟩ => rfl
    | ⟨3, _⟩ => rfl
  rw [val_main_v5_apply, hi, val_main_v4_apply, val_main_v1_apply, val_main_v0_apply, val_main_c_apply,
    not_neg_of_lt (hp _), select_zero]

/-! ## The two float results -/

/-- The reference's mention result is the specification's, for position words below 512. -/
theorem mention_eq (x0 : (⟨S32x512x768, .f32⟩ : BufTy).Contents (Elt Ideal))
    (x1 : (⟨S32x32x8x4, .i32⟩ : BufTy).Contents (Elt Ideal)) (hp : ∀ j, (x1 j).toNat < 512) :
    val_main_v9 (F := Ideal) x0 x1 = mention x0 x1 := by
  funext i
  obtain ⟨b, e, mm, h, rfl⟩ : ∃ (b e : Fin 32) (mm : Fin 8) (h : Fin 768), i = ix4 b e mm h :=
    ⟨i 0, i 1, i 2, i 3, eq_ix4 i⟩
  have hk : ∀ k : Fin 4, idx_main_v7 (ix4 b e mm h) k = ix5 b e mm k h := fun k => by
    funext a
    match a with
    | ⟨0, _⟩ => rfl
    | ⟨1, _⟩ => rfl
    | ⟨2, _⟩ => rfl
    | ⟨3, _⟩ => rfl
    | ⟨4, _⟩ => rfl
  rw [val_main_v9_apply, val_main_v7_apply, val_main_v8_apply, val_main_cst_1_apply, val_main_cst_apply]
  simp only [Ideal.hostDivf_def, Ideal.ofBits_def, Ideal.ofBits_zero_f32, zero_add]
  unfold mention
  refine congrArg (fun z => Ideal.div z _) (Finset.sum_congr rfl fun k _ => ?_)
  rw [hk k]
  unfold val_main_v6
  rw [gather_apply, index_word x1 hp]

/-- The reference's entity result is the specification's, for position words below 512. -/
theorem entity_eq (x0 : (⟨S32x512x768, .f32⟩ : BufTy).Contents (Elt Ideal))
    (x1 : (⟨S32x32x8x4, .i32⟩ : BufTy).Contents (Elt Ideal)) (hp : ∀ j, (x1 j).toNat < 512) :
    val_main_v12 (F := Ideal) x0 x1 = entity x0 x1 := by
  funext i
  obtain ⟨b, e, h, rfl⟩ : ∃ (b e : Fin 32) (h : Fin 768), i = ix3 b e h := ⟨i 0, i 1, i 2, eq_ix3 i⟩
  have hk : ∀ k : Fin 8, idx_main_v10 (ix3 b e h) k = ix4 b e k h := fun k => by
    funext a
    match a with
    | ⟨0, _⟩ => rfl
    | ⟨1, _⟩ => rfl
    | ⟨2, _⟩ => rfl
    | ⟨3, _⟩ => rfl
  rw [val_main_v12_apply, val_main_v10_apply, val_main_v11_apply, val_main_cst_3_apply, val_main_cst_2_apply]
  simp only [Ideal.hostDivf_def, Ideal.ofBits_def, Ideal.ofBits_zero_f32, zero_add]
  unfold entity
  refine congrArg (fun z => Ideal.div z _) (Finset.sum_congr rfl fun k _ => ?_)
  rw [hk k, mention_eq x0 x1 hp]

end Cert.SpanMean.Ref

end
-- ==== Proof.PreDecode.lean ====
/-
  What the precondition says of the two arguments.

  The precondition is the conjunction of two "all" tests: every token value `x` has `|x| < +∞`, and every position word
  `w` has `0 ≤ w` and `w < 512` as a signed integer. Read element by element: a token value with `max x (-x) < ⊤` is
  neither infinity, so it is a real number; a word that is non-negative and below 512 as a signed integer has its
  (unsigned) value below 512.
-/
import proofs.«406867_j88132728914534_3_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

namespace Cert.SpanMean.Pre

open Cert.Pre_finite_inputs Cert.Pre_finite_inputs.Gen
open Idealize.ShloMosaic Idealize.ShloMosaic.ValueIdx

instance : Subsingleton S_.Idx := ⟨fun a b => funext fun d => d.elim0⟩

/-- An extended real whose absolute value is below `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- A word that is, read signed, at least 0 and below 512 has its value below 512. -/
theorem word_lt (w : BitVec 32) (h0 : IntOp.cmpi .sge w 0#32 = 1#1) (h1 : IntOp.cmpi .slt w 512#32 = 1#1) :
    w.toNat < 512 := by
  have a := IntOp.cmpi_sge.mp h0
  have b := IntOp.cmpi_slt.mp h1
  have z : (0#32 : BitVec 32).toInt = 0 := by decide
  have f : (512#32 : BitVec 32).toInt = 512 := by decide
  rw [z] at a
  rw [f] at b
  rw [BitVec.toInt_eq_toNat_cond] at a b
  have hw := w.isLt
  by_cases hc : 2 * w.toNat < 2 ^ 32
  · rw [if_pos hc] at a b; omega
  · rw [if_neg hc] at a b; omega

/-- THE PRECONDITION, DECODED: every token value is a real number and every position word's value is below 512. -/
theorem decode (x0 : FVec Ideal S32x512x768 .f32) (x1 : IVec S32x32x8x4 32)
    (h : fn (F := Ideal) x0 x1 = fun _ => 1#1) :
    (∀ i, ∃ r : ℝ, x0 i = (r : EReal)) ∧ (∀ j, (x1 j).toNat < 512) := by
  have h0 := congrFun h ix0
  dsimp only [fn] at h0
  obtain ⟨ha, hb⟩ := IntOp.andi_eq_one.mp h0
  constructor
  · intro i
    have e := Host.reduce_andi_all _ _ _ _ _ ha i
    refine real_of_abs_lt_top (x0 i) ?_
    have e' : FloatOps.cmpf .olt (FloatOps.hostAbsf (x0 i))
        (broadcastInDim S32x512x768 ![] bcast_S_S32x512x768 (constant (F := Ideal) S_ .f32 0x7F800000#32) i) = 1#1 := e
    rw [StableHlo.Predicate.bcast_scalar bcast_S_S32x512x768 h_S_] at e'
    exact e'
  · intro j
    have e := Host.reduce_andi_all _ _ _ _ _ hb j
    obtain ⟨e0, e1⟩ := IntOp.andi_eq_one.mp e
    have e0' : IntOp.cmpi .sge (x1 j) (broadcastInDim S32x32x8x4 ![] bcast_S_S32x32x8x4 (constantI S_ 32 0#32) j) = 1#1 := e0
    have e1' : IntOp.cmpi .slt (x1 j) (broadcastInDim S32x32x8x4 ![] bcast_S_S32x32x8x4 (constantI S_ 32 512#32) j) = 1#1 := e1
    rw [StableHlo.Predicate.bcast_scalar bcast_S_S32x32x8x4 h_S_] at e0' e1'
    exact word_lt (x1 j) e0' e1'

end Cert.SpanMean.Pre

end
-- ==== Proof.lean ====
/-
  Span-mean pooling: the kernel against its jnp reference, over the extended reals.

  Arguments: tokens `x : f32[32, 512, 768]` and positions `p : i32[32, 32, 8, 4]`. Results, in order: entity
  representations `[32, 32, 768]`, mention representations `[32, 32, 8, 768]`, and an all-ones mask `[32, 32, 8]`.

      mention (b, e, m, h) = (∑ s < 4, x (b, p (b, e, m, s), h)) / 4
      entity  (b, e, h)    = (∑ m < 8, mention (b, e, m, h)) / 8

  The reference gathers the four named token rows and averages twice. The kernel never gathers: per batch row it builds
  a `256 × 512` weight matrix holding a quarter at `(8e + m, p (b, e, m, s))` for each `s` (a lane iota compared with the
  broadcast position, accumulated over the four `s`), multiplies it with the `512 × 768` token rows, and averages the
  product over each entity's eight mentions. The two agree because a weighted sum whose weights are indicator quarters
  picks out the named rows: ∑ l, (∑ s, [p_s = l] / 4) * x_l = (∑ s, x_(p_s)) / 4. That step distributes products over sums,
  which on the extended reals needs the token values finite; and it needs every position to BE a row number, 0 ≤ p < 512:
  outside that range the reference wraps and clamps the index while the kernel's comparison matches no lane. Both facts
  are the precondition. The second average is the same expression on both sides and needs neither.

  Where each part is proved: the specification and the weighted-sum law in `Spec`; the reference's stages as the
  specification in `RefSide` (including the gather read at an index); the kernel body's stored values at an index in
  `KernelPay`; the kernel's whole-array functions and their agreement with the specification in `Flat`; the arrays after
  the kernel's run in `KernelValue` and `KernelRun`; the precondition read element by element in `PreDecode`.
-/
import proofs.«406867_j88132728914534_3_alg».proof.Defs
import proofs.«406867_j88132728914534_3_alg».proof.Proof.Gen.Kernel
import proofs.«406867_j88132728914534_3_alg».proof.Proof.Gen.Kernel.Skeleton
import proofs.«406867_j88132728914534_3_alg».proof.Proof.Gen.Kernel.Launch
import proofs.«406867_j88132728914534_3_alg».proof.Proof.Gen.Kernel.Points
import proofs.«406867_j88132728914534_3_alg».proof.Proof.Gen.Kernel.Frame
import proofs.«406867_j88132728914534_3_alg».proof.Proof.Gen.KernelIdeal
import proofs.«406867_j88132728914534_3_alg».proof.Proof.Gen.KernelIdeal.Skeleton
import proofs.«406867_j88132728914534_3_alg».proof.Proof.Gen.KernelIdeal.Launch
import proofs.«406867_j88132728914534_3_alg».proof.Proof.Gen.KernelIdeal.Points
import proofs.«406867_j88132728914534_3_alg».proof.Proof.Gen.KernelIdeal.Frame
import proofs.«406867_j88132728914534_3_alg».proof.Proof.Gen.ReferenceIdeal
import proofs.«406867_j88132728914534_3_alg».proof.Proof.Gen.ReferenceIdeal.Run
import proofs.«406867_j88132728914534_3_alg».proof.Proof.Gen.ReferenceIdeal.Read
import proofs.«406867_j88132728914534_3_alg».proof.Proof.Gen.Pre_finite_inputs
import proofs.«406867_j88132728914534_3_alg».proof.Proof.KernelRun
import proofs.«406867_j88132728914534_3_alg».proof.Proof.RefSide
import proofs.«406867_j88132728914534_3_alg».proof.Proof.PreDecode
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the results dropped. -/
theorem frame_referenceIdeal : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- The idealization rewrote nothing, so there is nothing to preserve. -/
theorem preserves : Cert.preserves_Kernel_KernelIdeal := trivial

/-- Under the precondition both programs end with the specification's entity and mention arrays and the all-ones mask. -/
theorem algebraic : Cert.algebraic_KernelIdeal_ReferenceIdeal := by
  intro m ρ m' ρ' hpre hagree
  refine ⟨fun c => Cert.SpanMean.entity (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => Cert.SpanMean.mention (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun _ => broadcastInDim Cert.KernelIdeal.S32x32x8 ![] Cert.KernelIdeal.Facts₀.bcast_S_S32x32x8
        (constant (F := Ideal) Cert.KernelIdeal.S_ .f32 0x3F800000#32), ?_, ?_⟩
  · refine (θ_run Cert.KernelIdeal.defs _ _).mono (fun r h c => ?_) (Cert.SpanMean.KernelRun.run m ρ)
    obtain ⟨hx, hp⟩ := Cert.SpanMean.Pre.decode _ _ (hpre c)
    obtain ⟨h1, h2, h3, h4, h5⟩ := h c
    exact ⟨h1.trans (Cert.SpanMean.entityFlat_eq _ _ _ hx hp),
      h2.trans (Cert.SpanMean.mentionFlat_regrouped _ _ _ hx hp _), h3, h4, h5⟩
  · refine (θ_run Cert.ReferenceIdeal.defs _ _).mono (fun r h c => ?_)
      (Cert.ReferenceIdeal.Value.run (F := Ideal) m' ρ')
    obtain ⟨hx, hp⟩ := Cert.SpanMean.Pre.decode _ _ (hpre c)
    obtain ⟨h1, h2, h3, h4, h5⟩ := h c
    refine ⟨h1.trans ?_, h2.trans ?_, h3, h4, h5⟩
    · rw [(hagree c).1, (hagree c).2]
      exact (Cert.ReferenceIdeal.Read.val_main_v12_eq _ _).trans (Cert.SpanMean.Ref.entity_eq _ _ hp)
    · rw [(hagree c).1, (hagree c).2]
      exact (Cert.ReferenceIdeal.Read.val_main_v9_eq _ _).trans (Cert.SpanMean.Ref.mention_eq _ _ hp)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
